-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S2048x1024 : Shape := ⟨2, ![2048, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024 .f32) (main_arg8 : FVec F S1024 .f32) (main_arg9 : FVec F S1024 .f32) (main_arg10 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S2048x1024 .f32) (main_arg5 : FVec F S2048x1024 .f32) (main_arg6 : FVec F S2048x1024 .f32) (main_arg7 : FVec F S1024 .f32) (main_arg8 : FVec F S1024 .f32) (main_arg9 : FVec F S1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S2048x1024 .f32) (main_arg4 : FVec F S2048x1024 .f32) (main_arg5 : FVec F S2048x1024 .f32) (main_arg6 : FVec F S2048x1024 .f32) (main_arg7 : FVec F S1024 .f32) (main_arg8 : FVec F S1024 .f32) (main_arg9 : FVec F S1024 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S2048x1024 : Shape := ⟨2, ![2048, 1024]⟩
abbrev S1024 : Shape := ⟨1, ![1024]⟩
abbrev S2048x4096 : Shape := ⟨2, ![2048, 4096]⟩
abbrev S4096 : Shape := ⟨1, ![4096]⟩
abbrev S256x1024 : Shape := ⟨2, ![256, 1024]⟩
abbrev S256x2048 : Shape := ⟨2, ![256, 2048]⟩
abbrev S256x4096 : Shape := ⟨2, ![256, 4096]⟩
abbrev S1x4096 : Shape := ⟨2, ![1, 4096]⟩

abbrev nBuf : Space → Nat
  | .hbm => 16
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S2048x4096, .f32⟩
  | .hbm, ⟨12, _⟩ => ⟨S2048x4096, .bf16⟩
  | .hbm, ⟨13, _⟩ => ⟨S4096, .f32⟩
  | .hbm, ⟨14, _⟩ => ⟨S8192x1024, .f32⟩
  | .hbm, ⟨15, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S2048x1024_S2048x1024_S2048x1024_S2048x1024_S2048x4096_d1 : Shape.Concatenates [S2048x1024, S2048x1024, S2048x1024, S2048x1024] S2048x4096 1
  bitsLt_bf16_f32 : FTy.bits .bf16 < FTy.bits .f32
  concatenates_S1024_S1024_S1024_S1024_S4096_d0 : Shape.Concatenates [S1024, S1024, S1024, S1024] S4096 0
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S2048x1024 : Shape := ⟨2, ![2048, 1024]⟩
abbrev S1024 : Shape := ⟨1, ![1024]⟩
abbrev S8192x2048 : Shape := ⟨2, ![8192, 2048]⟩
abbrev S2048x4096 : Shape := ⟨2, ![2048, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S8192x2048, .f32⟩
  | .hbm, ⟨12, _⟩ => ⟨S2048x4096, .f32⟩
  | .hbm, ⟨13, _⟩ => ⟨S4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.FrameKernel.lean ====
/-
  The frame of the one pallas_call program: @main is three host operations (the four gate weights laid side by side
  and rounded to bf16, the four biases laid end to end), then the region. The region's kernel reads, at grid point t,
  rows 256 t … 256 t + 255 of x, h and c, the whole fused weight and the whole fused bias, and stores one block of
  each result; it keeps nothing between points. So the proof data name each input window's buffer after the body as
  the block it was fetched with and each output window's as the body's stored value of those blocks, and the launch
  theorem gives: every execution ends, faults nowhere, the two result arrays hold what the points flushed, and every
  other array is as the region found it — the arguments as launched, since no host operation writes one.
-/
import proofs.«112288_j42846593745221_1_alg».proof.Proof.Gen.Kernel.Launch
import proofs.«112288_j42846593745221_1_alg».proof.Proof.Gen.Kernel.Skeleton
import proofs.«112288_j42846593745221_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the three host operations. -/
abbrev V (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, whether that point fetched it or an earlier one did
    (an unfetched window's block index has not moved), for any proof data over these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, whether that point fetched it or an earlier one did
    (an unfetched window's block index has not moved), for any proof data over these arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, whether that point fetched it or an earlier one did
    (an unfetched window's block index has not moved), for any proof data over these arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, whether that point fetched it or an earlier one did
    (an unfetched window's block index has not moved), for any proof data over these arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, whether that point fetched it or an earlier one did
    (an unfetched window's block index has not moved), for any proof data over these arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- The arguments end as launched: x, h and c are arrays the pipeline only reads, the others no window stages, and the
    region found each as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

abbrev rRow : Rect S256x1024 := Rect.unit (s := S256x1024) ![0, 0] S256x1024.size inb_S256x1024_S256x1024_0_0
abbrev rW : Rect S2048x4096 := Rect.unit (s := S2048x4096) ![0, 0] S2048x4096.size inb_S2048x4096_S2048x4096_0_0
abbrev rB : Rect S4096 := Rect.unit (s := S4096) ![0] S4096.size inb_S4096_S4096_0

/-! ## What the body leaves in each result window's buffer -/

/-- The new hidden state's buffer after the body: its one store, of the body's value of the five input blocks. -/
def out0_5 (x0 x1 x2 : Vec F S256x1024 .f32) (x3 : Vec F S2048x4096 .bf16) (x4 : Vec F S4096 .f32) : Vec F S256x1024 .f32 :=
  View.canon [⟨rRow, k0_pay3 (View.ld x0 rRow) (View.ld x1 rRow) (View.ld x2 rRow) (View.ld x3 rW) (View.ld x4 rB)⟩]
/-- The new cell state's buffer after the body. -/
def out0_6 (x0 x1 x2 : Vec F S256x1024 .f32) (x3 : Vec F S2048x4096 .bf16) (x4 : Vec F S4096 .f32) : Vec F S256x1024 .f32 :=
  View.canon [⟨rRow, k0_pay2 (View.ld x0 rRow) (View.ld x1 rRow) (View.ld x2 rRow) (View.ld x3 rW) (View.ld x4 rB)⟩]

/-- The one store covers the buffer. -/
theorem cover_row (p0 : Vec F S256x1024 .f32) (y : S256x1024.Idx) :
    ∃ pc ∈ ([⟨rRow, p0⟩] : List (View.Piece (Elt F) S256x1024 .f32)), y ∈ pc.1.set :=
  View.cover_of_tiled [⟨rRow, p0⟩] S256x1024.size (by rfl) y

/-! ## The body's triple -/

set_option maxHeartbeats 1000000 in
/-- The kernel body on whole staging memrefs — the inputs' at known contents, the results' at anything — runs to the
    continuation holding the inputs' as they were and each result's at the body's value of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S4096 .f32) (harg5 : arg5.IsWhole) (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S2048x4096 .bf16) (x4 : Vec F S4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__lambda_ i arg1 harg1 arg2 harg2 arg3 harg3 arg4 harg4 arg5 harg5 arg6 harg6 arg7 harg7) K := by
  simp only [cc0__lambda__eq_skeleton]; unfold cc0__lambda__skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_row _)
  iexists _; isplitr
  swap; · iexact H6
  ipureintro
  exact View.read_writes_eq_canon _ _ _ (cover_row _)

/-! ## The pipeline's proof data -/

/-- The proof data on core `c`: the arrays as the region finds them; after the body at point `t` each input's buffer at
    its block and each result's at the body's value of the five blocks; nothing of the kernel's own to keep. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main ends, with each array of the pipeline at
    what the proof data say was flushed into it and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Fr

end
-- ==== Proof.FrameKernelIdeal.lean ====
/-
  The frame of the one pallas_call program: @main is three host operations (the four gate weights laid side by side
  and rounded to bf16, the four biases laid end to end), then the region. The region's kernel reads, at grid point t,
  rows 256 t … 256 t + 255 of x, h and c, the whole fused weight and the whole fused bias, and stores one block of
  each result; it keeps nothing between points. So the proof data name each input window's buffer after the body as
  the block it was fetched with and each output window's as the body's stored value of those blocks, and the launch
  theorem gives: every execution ends, faults nowhere, the two result arrays hold what the points flushed, and every
  other array is as the region found it — the arguments as launched, since no host operation writes one.
-/
import proofs.«112288_j42846593745221_1_alg».proof.Proof.Gen.KernelIdeal.Launch
import proofs.«112288_j42846593745221_1_alg».proof.Proof.Gen.KernelIdeal.Skeleton
import proofs.«112288_j42846593745221_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s buffers hold when the region is entered: the launch memory after the three host operations. -/
abbrev V (c : Dev nD) (b : Ref sig .tc) : Buf (Elt F) ((c : Thread nD τ).loc b) :=
  StableHlo.after (List.flatten [hostOps0]) (fun b => m (c, b)) b

/-- The host operations allocate nothing. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's buffer holds its block at every point, whether that point fetched it or an earlier one did
    (an unfetched window's block index has not moved), for any proof data over these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's buffer holds its block at every point, whether that point fetched it or an earlier one did
    (an unfetched window's block index has not moved), for any proof data over these arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's buffer holds its block at every point, whether that point fetched it or an earlier one did
    (an unfetched window's block index has not moved), for any proof data over these arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's buffer holds its block at every point, whether that point fetched it or an earlier one did
    (an unfetched window's block index has not moved), for any proof data over these arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's buffer holds its block at every point, whether that point fetched it or an earlier one did
    (an unfetched window's block index has not moved), for any proof data over these arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

/-- The arguments end as launched: x, h and c are arrays the pipeline only reads, the others no window stages, and the
    region found each as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

/-! ## The body's accesses -/

abbrev rRow : Rect S256x1024 := Rect.unit (s := S256x1024) ![0, 0] S256x1024.size inb_S256x1024_S256x1024_0_0
abbrev rW : Rect S2048x4096 := Rect.unit (s := S2048x4096) ![0, 0] S2048x4096.size inb_S2048x4096_S2048x4096_0_0
abbrev rB : Rect S4096 := Rect.unit (s := S4096) ![0] S4096.size inb_S4096_S4096_0

/-! ## What the body leaves in each result window's buffer -/

/-- The new hidden state's buffer after the body: its one store, of the body's value of the five input blocks. -/
def out0_5 (x0 x1 x2 : Vec F S256x1024 .f32) (x3 : Vec F S2048x4096 .bf16) (x4 : Vec F S4096 .f32) : Vec F S256x1024 .f32 :=
  View.canon [⟨rRow, k0_pay3 (View.ld x0 rRow) (View.ld x1 rRow) (View.ld x2 rRow) (View.ld x3 rW) (View.ld x4 rB)⟩]
/-- The new cell state's buffer after the body. -/
def out0_6 (x0 x1 x2 : Vec F S256x1024 .f32) (x3 : Vec F S2048x4096 .bf16) (x4 : Vec F S4096 .f32) : Vec F S256x1024 .f32 :=
  View.canon [⟨rRow, k0_pay2 (View.ld x0 rRow) (View.ld x1 rRow) (View.ld x2 rRow) (View.ld x3 rW) (View.ld x4 rB)⟩]

/-- The one store covers the buffer. -/
theorem cover_row (p0 : Vec F S256x1024 .f32) (y : S256x1024.Idx) :
    ∃ pc ∈ ([⟨rRow, p0⟩] : List (View.Piece (Elt F) S256x1024 .f32)), y ∈ pc.1.set :=
  View.cover_of_tiled [⟨rRow, p0⟩] S256x1024.size (by rfl) y

/-! ## The body's triple -/

set_option maxHeartbeats 1000000 in
/-- The kernel body on whole staging memrefs — the inputs' at known contents, the results' at anything — runs to the
    continuation holding the inputs' as they were and each result's at the body's value of the inputs. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S4096 .f32) (harg5 : arg5.IsWhole) (arg6 : Memref sig .tc .vmem S256x1024 .f32) (harg6 : arg6.IsWhole)
    (arg7 : Memref sig .tc .vmem S256x1024 .f32) (harg7 : arg7.IsWhole)
    (x0 x1 x2 : Vec F S256x1024 .f32) (x3 : Vec F S2048x4096 .bf16) (x4 : Vec F S4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__lambda_ i arg1 harg1 arg2 harg2 arg3 harg3 arg4 harg4 arg5 harg5 arg6 harg6 arg7 harg7) K := by
  simp only [cc0__lambda__eq_skeleton]; unfold cc0__lambda__skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_row _)
  iexists _; isplitr
  swap; · iexact H6
  ipureintro
  exact View.read_writes_eq_canon _ _ _ (cover_row _)

/-! ## The pipeline's proof data -/

/-- The proof data on core `c`: the arrays as the region finds them; after the body at point `t` each input's buffer at
    its block and each result's at the body's value of the five blocks; nothing of the kernel's own to keep. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
    | ⟨6, _⟩ => out0_6 (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]
theorem after0_6 (c : Dev nD) (t : Fin cfg0.N) : (dats m 0 c).after 6 t = out0_6 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the invariant passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch theorem's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main ends, with each array of the pipeline at
    what the proof data say was flushed into it and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float family. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Fr

end
-- ==== Proof.Spec.lean ====
/-
  The LSTM cell as functions of extended reals, independent of either program.

  A row's pre-activations are  z(r, j) = Σ_k xh(r, k) · W(k, j) + b(j)  for j < 4096, where xh is x and h laid side by
  side, W the four gate weights laid side by side and b the four biases laid end to end. With σ(z) = 1 / (1 + e^(−z)),
  the new cell state is  σ(z_f) · c + σ(z_i) · tanh(z_g)  and the new hidden state  σ(z_o) · tanh(c_new), the gates
  i, f, g, o being columns u, 1024 + u, 2048 + u, 3072 + u of the row.
-/
import Idealize.ShloMosaic.PureOps.Ideal
import Idealize.ShloMosaic.Lib.ValueIdx

noncomputable section

open scoped BigOperators

namespace Cert.Lstm

open Idealize.ShloMosaic Idealize.ShloMosaic.ValueIdx

/-- The float literal 1.0, as both programs spell it. -/
abbrev one : EReal := Ideal.ofBits .f32 0x3F800000#32

theorem one_eq : one = 1 := by
  show Ideal.ofBits .f32 0x3F800000#32 = 1
  simp [Ideal.ofBits, Ideal.ieee, -EReal.coe_mul]; norm_num

/-- The logistic function, spelt as negate, exponential, add one, divide one by it. -/
def sigm (z : EReal) : EReal := Ideal.div one (one + Ideal.exp (-z))

/-- The kernel's one-operation logistic is that expression. -/
theorem logistic_eq (z : EReal) : Ideal.logistic z = sigm z := by
  unfold sigm Ideal.logistic; rw [one_eq]

/-- Row `r`'s pre-activation at column `j`: the row of `xh` against column `j` of `W`, plus the bias. Stated for a
    matrix `xh` of any number of rows, so that it reads a block of rows and the whole array alike. -/
def preact {n : Nat} (xh : (⟨2, ![n, 2048]⟩ : Shape).Idx → EReal) (W : (⟨2, ![2048, 4096]⟩ : Shape).Idx → EReal)
    (b : (⟨1, ![4096]⟩ : Shape).Idx → EReal) (r : Fin n) (j : Fin 4096) : EReal :=
  (∑ k : Fin 2048, xh (ix2 r k) * W (ix2 k j)) + b (ix1 j)

/-- Two matrices that agree on a row give that row the same pre-activations. -/
theorem preact_congr {n n' : Nat} (xh : (⟨2, ![n, 2048]⟩ : Shape).Idx → EReal) (xh' : (⟨2, ![n', 2048]⟩ : Shape).Idx → EReal)
    (W : (⟨2, ![2048, 4096]⟩ : Shape).Idx → EReal) (b : (⟨1, ![4096]⟩ : Shape).Idx → EReal) (r : Fin n) (r' : Fin n')
    (h : ∀ k : Fin 2048, xh (ix2 r k) = xh' (ix2 r' k)) (j : Fin 4096) : preact xh W b r j = preact xh' W b r' j := by
  unfold preact
  exact congrArg (· + b (ix1 j)) (Finset.sum_congr rfl fun k _ => by rw [h k])

/-- The new cell state at unit `u` from a row's pre-activations `z` and the old cell state there. -/
def cellAt (z : Fin 4096 → EReal) (cv : EReal) (u : Fin 1024) : EReal :=
  sigm (z ⟨1024 + u.val, by omega⟩) * cv + sigm (z ⟨u.val, by omega⟩) * Ideal.tanh (z ⟨2048 + u.val, by omega⟩)

/-- The new hidden state at unit `u`. -/
def hidAt (z : Fin 4096 → EReal) (cv : EReal) (u : Fin 1024) : EReal :=
  sigm (z ⟨3072 + u.val, by omega⟩) * Ideal.tanh (cellAt z cv u)

/-! ## The fused operands and the two results as whole arrays -/

abbrev SBU : Shape := ⟨2, ![8192, 1024]⟩
abbrev SKU : Shape := ⟨2, ![2048, 1024]⟩
abbrev SU : Shape := ⟨1, ![1024]⟩
abbrev SBK : Shape := ⟨2, ![8192, 2048]⟩
abbrev SKN : Shape := ⟨2, ![2048, 4096]⟩
abbrev SN : Shape := ⟨1, ![4096]⟩

theorem catXH : Shape.Concatenates [SBU, SBU] SBK 1 := by decide
theorem catW : Shape.Concatenates [SKU, SKU, SKU, SKU] SKN 1 := by decide
theorem catB : Shape.Concatenates [SU, SU, SU, SU] SN 0 := by decide

/-- x and h side by side. -/
def fusedXH (x h : SBU.Idx → EReal) : SBK.Idx → EReal := concatenate SBK 1 [⟨SBU, x⟩, ⟨SBU, h⟩] catXH
/-- The four gate weights side by side. -/
def fusedW (wi wf wg wo : SKU.Idx → EReal) : SKN.Idx → EReal :=
  concatenate SKN 1 [⟨SKU, wi⟩, ⟨SKU, wf⟩, ⟨SKU, wg⟩, ⟨SKU, wo⟩] catW
/-- The four gate biases end to end. -/
def fusedB (bi bf bg bo : SU.Idx → EReal) : SN.Idx → EReal :=
  concatenate SN 0 [⟨SU, bi⟩, ⟨SU, bf⟩, ⟨SU, bg⟩, ⟨SU, bo⟩] catB

/-- The new cell state, as one function of the eleven arguments. -/
def cellG (x h c : SBU.Idx → EReal) (wi wf wg wo : SKU.Idx → EReal) (bi bf bg bo : SU.Idx → EReal) : SBU.Idx → EReal := fun i =>
  cellAt (preact (fusedXH x h) (fusedW wi wf wg wo) (fusedB bi bf bg bo) ⟨(i 0).val, (i 0).isLt⟩) (c i) ⟨(i 1).val, (i 1).isLt⟩

/-- The new hidden state, as one function of the eleven arguments. -/
def hidG (x h c : SBU.Idx → EReal) (wi wf wg wo : SKU.Idx → EReal) (bi bf bg bo : SU.Idx → EReal) : SBU.Idx → EReal := fun i =>
  hidAt (preact (fusedXH x h) (fusedW wi wf wg wo) (fusedB bi bf bg bo) ⟨(i 0).val, (i 0).isLt⟩) (c i) ⟨(i 1).val, (i 1).isLt⟩

end Cert.Lstm

end
-- ==== Proof.KernelPay.lean ====
/-
  The kernel body's arithmetic at one element, at the ideal instance. A block of 256 rows is laid beside the matching
  block of h, rounded (the identity on extended reals) and multiplied into a zero accumulator by the fused weight; the
  fused bias is added along the rows; the four gate columns are cut out and combined. Read at row p and unit u this is
  the LSTM cell of the row's pre-activations.
-/
import proofs.«112288_j42846593745221_1_alg».proof.Proof.Gen.KernelIdeal.Skeleton
import proofs.«112288_j42846593745221_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx Cert.Lstm

/-! ## The matrix product's operand indices: output (p, j) and contraction index k read the left operand at (p, k) and
    the right at (k, j) -/

theorem lhs_0 (i : S256x4096.Idx) (q : dot_S256x2048_S2048x4096_S256x4096_1_0_0_1_n_n.contr.Idx) :
    (dot_S256x2048_S2048x4096_S256x4096_1_0_0_1_n_n.lhsIdx i q 0).val = (i 0).val := by
  unfold DotDims.lhsIdx
  rw [dif_neg (show ¬(0 : Fin S256x2048.rank) ∈ dot_S256x2048_S2048x4096_S256x4096_1_0_0_1_n_n.lhsBatch by decide), dif_pos (show (0 : Fin S256x2048.rank) ∈ dot_S256x2048_S2048x4096_S256x4096_1_0_0_1_n_n.lhsNonContracting by decide)]
  rfl
theorem lhs_1 (i : S256x4096.Idx) (q : dot_S256x2048_S2048x4096_S256x4096_1_0_0_1_n_n.contr.Idx) :
    (dot_S256x2048_S2048x4096_S256x4096_1_0_0_1_n_n.lhsIdx i q 1).val = (q ⟨0, by decide⟩).val :=
  dot_S256x2048_S2048x4096_S256x4096_1_0_0_1_n_n.lhsIdx_val_of_single rfl i q
theorem rhs_0 (i : S256x4096.Idx) (q : dot_S256x2048_S2048x4096_S256x4096_1_0_0_1_n_n.contr.Idx) :
    (dot_S256x2048_S2048x4096_S256x4096_1_0_0_1_n_n.rhsIdx i q 0).val = (q ⟨0, by decide⟩).val :=
  dot_S256x2048_S2048x4096_S256x4096_1_0_0_1_n_n.rhsIdx_val_of_single rfl i q
theorem rhs_1 (i : S256x4096.Idx) (q : dot_S256x2048_S2048x4096_S256x4096_1_0_0_1_n_n.contr.Idx) :
    (dot_S256x2048_S2048x4096_S256x4096_1_0_0_1_n_n.rhsIdx i q 1).val = (i 1).val := by
  unfold DotDims.rhsIdx
  rw [dif_neg (show ¬(1 : Fin S2048x4096.rank) ∈ dot_S256x2048_S2048x4096_S256x4096_1_0_0_1_n_n.rhsBatch by decide), dif_pos (show (1 : Fin S2048x4096.rank) ∈ dot_S256x2048_S2048x4096_S256x4096_1_0_0_1_n_n.rhsNonContracting by decide)]
  rfl

/-- The product into the zero accumulator at (p, j) is the sum over k of left (p, k) times right (k, j). -/
theorem matmul_at (l : FVec Ideal S256x2048 .bf16) (r : FVec Ideal S2048x4096 .bf16) (p : Fin 256) (j : Fin 4096) :
    matmul dot_S256x2048_S2048x4096_S256x4096_1_0_0_1_n_n none l r (constant S256x4096 .f32 0x00000000#32) (ix2 p j)
      = ∑ k : Fin 2048, l (ix2 p k) * r (ix2 k j) := by
  simp only [matmul]
  rw [Ideal.matmul_constant_zero_apply, ← Equiv.sum_comp (contrEquiv1 dot_S256x2048_S2048x4096_S256x4096_1_0_0_1_n_n 2048 rfl rfl).symm]
  refine Finset.sum_congr rfl fun k _ => ?_
  have hk := contrEquiv1_symm_val dot_S256x2048_S2048x4096_S256x4096_1_0_0_1_n_n 2048 rfl rfl k
  have el : dot_S256x2048_S2048x4096_S256x4096_1_0_0_1_n_n.lhsIdx (ix2 p j) ((contrEquiv1 dot_S256x2048_S2048x4096_S256x4096_1_0_0_1_n_n 2048 rfl rfl).symm k) = ix2 p k := funext fun a => Fin.ext (by
    match a with
    | ⟨0, _⟩ => exact lhs_0 _ _
    | ⟨1, _⟩ => exact (lhs_1 _ _).trans hk)
  have er : dot_S256x2048_S2048x4096_S256x4096_1_0_0_1_n_n.rhsIdx (ix2 p j) ((contrEquiv1 dot_S256x2048_S2048x4096_S256x4096_1_0_0_1_n_n 2048 rfl rfl).symm k) = ix2 k j := funext fun a => Fin.ext (by
    match a with
    | ⟨0, _⟩ => exact (rhs_0 _ _).trans hk
    | ⟨1, _⟩ => exact rhs_1 _ _)
  rw [el, er]

/-- The bias, given a unit leading axis and repeated down the rows, read at (p, j) is the bias at j. -/
theorem bias_at (v8 : FVec Ideal S4096 .f32) (p : Fin 256) (j : Fin 4096) :
    broadcastTo S256x4096 (shapeCast S1x4096 (shapeCast S4096 v8 shapeCasts_S4096_S4096) shapeCasts_S4096_S1x4096) broadcasts_S1x4096_S256x4096 (ix2 p j)
      = v8 (ix1 j) := by
  rw [broadcastTo_apply _ broadcasts_S1x4096_S256x4096 (ix2 p j) (ix2 (⟨0, Nat.one_pos⟩ : Fin 1) j) (fun a => by
    match a with
    | ⟨0, _⟩ => show 0 = if (1 : Nat) = 1 then 0 else _; rw [if_pos rfl]
    | ⟨1, _⟩ => show j.val = if (4096 : Nat) = 1 then 0 else j.val; rw [if_neg (by decide)])]
  rw [shapeCast_self]
  refine (shapeCast_addUnit_apply ![4096] v8 shapeCasts_S4096_S1x4096 _).trans ?_
  exact congrArg v8 (funext fun a => by match a with | ⟨0, _⟩ => rfl)

/-- The pre-activations of the block's row p: the row of [x block | h block] against the fused weight, plus the fused bias. -/
theorem pay1_at (v0 v1 : Vec Ideal S256x1024 .f32) (v5 : Vec Ideal S2048x4096 .bf16) (v8 : Vec Ideal S4096 .f32) (p : Fin 256) (j : Fin 4096) :
    k0_pay1 (F := Ideal) v0 v1 v5 v8 (ix2 p j)
      = preact (concatenate S256x2048 1 [⟨S256x1024, v0⟩, ⟨S256x1024, v1⟩] concatenates_S256x1024_S256x1024_S256x2048_d1) v5 v8 p j := by
  unfold k0_pay1 preact
  rw [addf_apply, matmul_at, bias_at, shapeCast_self]
  rfl

/-- The new cell state's stored value at row p, unit u. -/
theorem pay2_at (v0 v1 v2 : Vec Ideal S256x1024 .f32) (v5 : Vec Ideal S2048x4096 .bf16) (v8 : Vec Ideal S4096 .f32) (p : Fin 256) (u : Fin 1024) :
    k0_pay2 (F := Ideal) v0 v1 v2 v5 v8 (ix2 p u)
      = cellAt (fun j => k0_pay1 (F := Ideal) v0 v1 v5 v8 (ix2 p j)) (v2 (ix2 p u)) u := by
  unfold k0_pay2 cellAt
  rw [addf_apply, mulf_apply, mulf_apply]
  simp only [logistic, tanh, Ideal.logistic_def, Ideal.tanh_def, logistic_eq]
  rw [extractStridedSlice_apply ![0, 0] _ slices_S256x4096_o0_0_S256x1024 (ix2 p u) (ix2 p ⟨u.val, by omega⟩) (fun a => by
      match a with
      | ⟨0, _⟩ => show p.val = 0 + p.val; omega
      | ⟨1, _⟩ => show u.val = 0 + u.val; omega),
    extractStridedSlice_apply ![0, 1024] _ slices_S256x4096_o0_1024_S256x1024 (ix2 p u) (ix2 p ⟨1024 + u.val, by omega⟩) (fun a => by
      match a with
      | ⟨0, _⟩ => show p.val = 0 + p.val; omega
      | ⟨1, _⟩ => rfl),
    extractStridedSlice_apply ![0, 2048] _ slices_S256x4096_o0_2048_S256x1024 (ix2 p u) (ix2 p ⟨2048 + u.val, by omega⟩) (fun a => by
      match a with
      | ⟨0, _⟩ => show p.val = 0 + p.val; omega
      | ⟨1, _⟩ => rfl)]

/-- The new hidden state's stored value at row p, unit u. -/
theorem pay3_at (v0 v1 v2 : Vec Ideal S256x1024 .f32) (v5 : Vec Ideal S2048x4096 .bf16) (v8 : Vec Ideal S4096 .f32) (p : Fin 256) (u : Fin 1024) :
    k0_pay3 (F := Ideal) v0 v1 v2 v5 v8 (ix2 p u)
      = hidAt (fun j => k0_pay1 (F := Ideal) v0 v1 v5 v8 (ix2 p j)) (v2 (ix2 p u)) u := by
  unfold k0_pay3 hidAt
  rw [mulf_apply]
  simp only [logistic, tanh, Ideal.logistic_def, Ideal.tanh_def, logistic_eq]
  rw [pay2_at, extractStridedSlice_apply ![0, 3072] _ slices_S256x4096_o0_3072_S256x1024 (ix2 p u) (ix2 p ⟨3072 + u.val, by omega⟩) (fun a => by
      match a with
      | ⟨0, _⟩ => show p.val = 0 + p.val; omega
      | ⟨1, _⟩ => rfl)]

end Cert.KernelIdeal.Pay

end
-- ==== Proof.LibConcat.lean ====
/-
  Two matrices of n rows and 1024 columns laid side by side, read at an element: left of column 1024 the first matrix,
  from it on the second, 1024 columns back.
-/
import Idealize.ShloMosaic.Lib.Pipeline.Value
import Idealize.ShloMosaic.Lib.ValueIdx

noncomputable section

namespace Cert.LibConcat

open Idealize.ShloMosaic Idealize.ShloMosaic.ValueIdx

/-- The concatenation along axis 1 of two [n, 1024] matrices, at (r, k): the first at (r, k) when k < 1024, otherwise
    the second at (r, k − 1024). -/
theorem concat2_at {α : Type} {n : Nat} (x y : (⟨2, ![n, 1024]⟩ : Shape).Idx → α)
    (h : Shape.Concatenates [(⟨2, ![n, 1024]⟩ : Shape), (⟨2, ![n, 1024]⟩ : Shape)] (⟨2, ![n, 2048]⟩ : Shape) 1) (r : Fin n) (k : Fin 2048) :
    concatenate (⟨2, ![n, 2048]⟩ : Shape) 1 [⟨(⟨2, ![n, 1024]⟩ : Shape), x⟩, ⟨(⟨2, ![n, 1024]⟩ : Shape), y⟩] h (ix2 r k)
      = if hk : k.val < 1024 then x (ix2 r (⟨k.val, hk⟩ : Fin 1024))
        else y (ix2 r (⟨k.val - 1024, by have := k.isLt; omega⟩ : Fin 1024)) := by
  by_cases hk : k.val < 1024
  · rw [dif_pos hk]
    exact concatenate_pair_apply_left (t := (⟨2, ![n, 2048]⟩ : Shape)) (s₁ := (⟨2, ![n, 1024]⟩ : Shape)) (s₂ := (⟨2, ![n, 1024]⟩ : Shape))
      (1 : Fin 2) x y h (ix2 r k) rfl (ix2 r (⟨k.val, hk⟩ : Fin 1024)) (fun b => by
        match b with
        | ⟨0, _⟩ => rfl
        | ⟨1, _⟩ => rfl)
  · rw [dif_neg hk]
    exact concatenate_pair_apply_right (t := (⟨2, ![n, 2048]⟩ : Shape)) (s₁ := (⟨2, ![n, 1024]⟩ : Shape)) (s₂ := (⟨2, ![n, 1024]⟩ : Shape))
      (1 : Fin 2) x y h (ix2 r k) rfl rfl (ix2 r (⟨k.val - 1024, by have := k.isLt; omega⟩ : Fin 1024)) (fun b hb => by
        match b with
        | ⟨0, _⟩ => rfl
        | ⟨1, _⟩ => exact absurd (Fin.ext rfl) hb)
      (by show (k.val - 1024) + 1024 = k.val; omega)

end Cert.LibConcat

end
-- ==== Proof.KernelValue.lean ====
/-
  The idealized kernel's two result arrays after the run, as whole-array functions of the arguments.

  Point t of the grid is fetched rows 256 t … 256 t + 255 of x, h and c, and the whole fused weight and bias, which the
  host operations before the region built from the four gate weights and biases. What it flushes into a result is the
  body's stored value of those blocks, which element by element is the LSTM cell of the row's pre-activations; a row
  of [x block | h block] is the matching row of [x | h]. The 32 points' blocks cover the result arrays, so each ends as
  the one function of the arguments.
-/
import proofs.«112288_j42846593745221_1_alg».proof.Proof.FrameKernelIdeal
import proofs.«112288_j42846593745221_1_alg».proof.Proof.KernelPay
import proofs.«112288_j42846593745221_1_alg».proof.Proof.LibConcat
import Idealize.ShloMosaic.Lib.Pipeline.Value
import Idealize.ShloMosaic.Lib.StableHlo.Run

set_option maxRecDepth 16384

noncomputable section

open scoped BigOperators

namespace Cert.KernelIdeal.Val

open Cert.KernelIdeal Cert.KernelIdeal.Gen Cert.KernelIdeal.Fr Cert.KernelIdeal.Pay Cert.Lstm
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## What the host operations leave in the fused operands -/

/-- The fused weight the region finds: the four gate weights side by side (the rounding to bf16 is the identity here). -/
theorem V_w (c : Dev nD) : (V m c main_v1 : S2048x4096.Idx → EReal) = (fusedW (m ((c : Thread nD τ).loc main_arg3)) (m ((c : Thread nD τ).loc main_arg4)) (m ((c : Thread nD τ).loc main_arg5)) (m ((c : Thread nD τ).loc main_arg6))) := by
  dsimp only [V]
  simp only [hostOps0, List.flatten_cons, List.flatten_nil, List.append_nil, List.cons_append, List.nil_append]
  after_results
  rfl

/-- The fused bias the region finds: the four gate biases end to end. -/
theorem V_b (c : Dev nD) : (V m c main_v2 : S4096.Idx → EReal) = (fusedB (m ((c : Thread nD τ).loc main_arg7)) (m ((c : Thread nD τ).loc main_arg8)) (m ((c : Thread nD τ).loc main_arg9)) (m ((c : Thread nD τ).loc main_arg10))) := by
  dsimp only [V]
  simp only [hostOps0, List.flatten_cons, List.flatten_nil, List.append_nil, List.cons_append, List.nil_append]
  after_results
  rfl

/-! ## The index maps over the grid -/

/-- Point t's row blocks of x, h, c and of the two results are block t; the fused weight and bias are fetched whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 32 := by
  have h : t.val < cfg0.N := t.isLt
  have e : cfg0.N = 32 := N_0
  omega

/-! ## The input blocks read at an element -/

/-- Window 0's block at point t, read at (p, k), is its array at (256 t + p, k). -/
theorem iblk0_at (c : Dev nD) (t : Fin cfg0.N) (p : Fin 256) (k : Fin 1024) (hr : t.val * 256 + p.val < 8192) :
    iblk m c 0 t (ix2 p k) = V m c main_arg0 (ix2 (⟨t.val * 256 + p.val, hr⟩ : Fin 8192) k) := by
  show V m c main_arg0 (((cfg0.win 0).blk t).view.emb (ix2 p k)) = _
  refine congrArg _ (funext fun a => Fin.ext ?_)
  obtain ⟨e00, e01, e10, e11, e20, e21, -⟩ := idx_facts t
  match a with
  | ⟨0, _⟩ => show win0_0.index t (0 : Fin 2) * 256 + 1 * p.val = t.val * 256 + p.val; rw [e00]; omega
  | ⟨1, _⟩ => show win0_0.index t (1 : Fin 2) * 1024 + 1 * k.val = k.val; rw [e01]; omega
/-- Window 1's block at point t, read at (p, k), is its array at (256 t + p, k). -/
theorem iblk1_at (c : Dev nD) (t : Fin cfg0.N) (p : Fin 256) (k : Fin 1024) (hr : t.val * 256 + p.val < 8192) :
    iblk m c 1 t (ix2 p k) = V m c main_arg1 (ix2 (⟨t.val * 256 + p.val, hr⟩ : Fin 8192) k) := by
  show V m c main_arg1 (((cfg0.win 1).blk t).view.emb (ix2 p k)) = _
  refine congrArg _ (funext fun a => Fin.ext ?_)
  obtain ⟨e00, e01, e10, e11, e20, e21, -⟩ := idx_facts t
  match a with
  | ⟨0, _⟩ => show win0_1.index t (0 : Fin 2) * 256 + 1 * p.val = t.val * 256 + p.val; rw [e10]; omega
  | ⟨1, _⟩ => show win0_1.index t (1 : Fin 2) * 1024 + 1 * k.val = k.val; rw [e11]; omega
/-- Window 2's block at point t, read at (p, k), is its array at (256 t + p, k). -/
theorem iblk2_at (c : Dev nD) (t : Fin cfg0.N) (p : Fin 256) (k : Fin 1024) (hr : t.val * 256 + p.val < 8192) :
    iblk m c 2 t (ix2 p k) = V m c main_arg2 (ix2 (⟨t.val * 256 + p.val, hr⟩ : Fin 8192) k) := by
  show V m c main_arg2 (((cfg0.win 2).blk t).view.emb (ix2 p k)) = _
  refine congrArg _ (funext fun a => Fin.ext ?_)
  obtain ⟨e00, e01, e10, e11, e20, e21, -⟩ := idx_facts t
  match a with
  | ⟨0, _⟩ => show win0_2.index t (0 : Fin 2) * 256 + 1 * p.val = t.val * 256 + p.val; rw [e20]; omega
  | ⟨1, _⟩ => show win0_2.index t (1 : Fin 2) * 1024 + 1 * k.val = k.val; rw [e21]; omega

/-- The fused weight's one block is the whole array. -/
theorem iblk3_eq (c : Dev nD) (t : Fin cfg0.N) : (iblk m c 3 t : S2048x4096.Idx → EReal) = V m c main_v1 := by
  funext y
  show V m c main_v1 (((cfg0.win 3).blk t).view.emb y) = V m c main_v1 y
  refine congrArg _ (funext fun a => Fin.ext ?_)
  obtain ⟨-, -, -, -, -, -, e30, e31, -⟩ := idx_facts t
  match a with
  | ⟨0, _⟩ => show win0_3.index t (0 : Fin 2) * 2048 + 1 * (y 0).val = (y 0).val; rw [e30]; omega
  | ⟨1, _⟩ => show win0_3.index t (1 : Fin 2) * 4096 + 1 * (y 1).val = (y 1).val; rw [e31]; omega

/-- The fused bias's one block is the whole array. -/
theorem iblk4_eq (c : Dev nD) (t : Fin cfg0.N) : (iblk m c 4 t : S4096.Idx → EReal) = V m c main_v2 := by
  funext y
  show V m c main_v2 (((cfg0.win 4).blk t).view.emb y) = V m c main_v2 y
  refine congrArg _ (funext fun a => Fin.ext ?_)
  obtain ⟨-, -, -, -, -, -, -, -, e40, -⟩ := idx_facts t
  match a with
  | ⟨0, _⟩ => show win0_4.index t (0 : Fin 1) * 4096 + 1 * (y 0).val = (y 0).val; rw [e40]; omega

/-! ## A block row's pre-activations are the array row's -/

/-- Row p of [x block | h block] at point t is row 256 t + p of [x | h]: left of column 1024 both read x, from it on h. -/
theorem xh_row (c : Dev nD) (t : Fin cfg0.N) (p : Fin 256) (hr : t.val * 256 + p.val < 8192) (k : Fin 2048) :
    concatenate S256x2048 1 [⟨S256x1024, iblk m c 0 t⟩, ⟨S256x1024, iblk m c 1 t⟩] concatenates_S256x1024_S256x1024_S256x2048_d1 (ix2 p k)
      = (fusedXH (V m c main_arg0) (V m c main_arg1)) (ix2 (⟨t.val * 256 + p.val, hr⟩ : Fin 8192) k) := by
  unfold fusedXH
  refine (Cert.LibConcat.concat2_at (α := EReal) (n := 256) (iblk m c 0 t) (iblk m c 1 t) concatenates_S256x1024_S256x1024_S256x2048_d1 p k).trans ?_
  refine Eq.trans ?_ (Cert.LibConcat.concat2_at (α := EReal) (n := 8192) (V m c main_arg0) (V m c main_arg1) catXH ⟨t.val * 256 + p.val, hr⟩ k).symm
  by_cases hk : k.val < 1024
  · rw [dif_pos hk, dif_pos hk]
    exact iblk0_at m c t p ⟨k.val, hk⟩ hr
  · rw [dif_neg hk, dif_neg hk]
    exact iblk1_at m c t p ⟨k.val - 1024, by have := k.isLt; omega⟩ hr

/-- So the body's pre-activations of block row p are those of array row 256 t + p under the fused arguments. -/
theorem row_eq (c : Dev nD) (t : Fin cfg0.N) (p : Fin 256) (hr : t.val * 256 + p.val < 8192) :
    (fun j : Fin 4096 => k0_pay1 (F := Ideal) (iblk m c 0 t) (iblk m c 1 t) (iblk m c 3 t) (iblk m c 4 t) (ix2 p j))
      = preact (fusedXH (V m c main_arg0) (V m c main_arg1)) (fusedW (m ((c : Thread nD τ).loc main_arg3)) (m ((c : Thread nD τ).loc main_arg4)) (m ((c : Thread nD τ).loc main_arg5)) (m ((c : Thread nD τ).loc main_arg6))) (fusedB (m ((c : Thread nD τ).loc main_arg7)) (m ((c : Thread nD τ).loc main_arg8)) (m ((c : Thread nD τ).loc main_arg9)) (m ((c : Thread nD τ).loc main_arg10))) (⟨t.val * 256 + p.val, hr⟩ : Fin 8192) := by
  funext j
  refine (pay1_at (iblk m c 0 t) (iblk m c 1 t) (iblk m c 3 t) (iblk m c 4 t) p j).trans ?_
  rw [iblk3_eq, iblk4_eq, V_w, V_b]
  exact preact_congr _ _ _ _ p ⟨t.val * 256 + p.val, hr⟩ (fun k => xh_row m c t p hr k) j

/-! ## What each point flushes -/

/-- Point t flushes block t of the new cell state. -/
theorem flushed6_eq (c : Dev nD) (t : Fin cfg0.N) :
    (dats m 0 c).flushed 6 t = ((cfg0.win 6).blk t).view.read (Elt Ideal) (cellG (V m c main_arg0) (V m c main_arg1) (V m c main_arg2) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg0.win 6).cut (grid0.coords t) ((dats m 0 c).after 6 t) = _
  rw [after0_6]
  unfold out0_6
  rw [View.canon_unit_zero hz2]
  simp only [View.ld_unit_zero (S := S256x1024) hz2, View.ld_unit_zero (S := S2048x4096) hz2, View.ld_unit_zero (S := S4096) hz1]
  funext j
  obtain ⟨p, u, rfl⟩ : ∃ (p : Fin 256) (u : Fin 1024), j = ix2 p u := ⟨j 0, j 1, eq_ix2 j⟩
  have hr : t.val * 256 + p.val < 8192 := by have := t_lt t; have := p.isLt; omega
  obtain ⟨-, -, -, -, -, -, -, -, -, e50, e51, e60, e61⟩ := idx_facts t
  have hemb : ((cfg0.win 6).blk t).view.emb (ix2 p u) = ix2 (⟨t.val * 256 + p.val, hr⟩ : Fin 8192) u := funext fun a => Fin.ext (by
    match a with
    | ⟨0, _⟩ => show win0_6.index t (0 : Fin 2) * 256 + 1 * p.val = t.val * 256 + p.val; rw [e60]; omega
    | ⟨1, _⟩ => show win0_6.index t (1 : Fin 2) * 1024 + 1 * u.val = u.val; rw [e61]; omega)
  show k0_pay2 (F := Ideal) (iblk m c 0 t) (iblk m c 1 t) (iblk m c 2 t) (iblk m c 3 t) (iblk m c 4 t) (ix2 p u)
    = cellG (V m c main_arg0) (V m c main_arg1) (V m c main_arg2) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 6).blk t).view.emb (ix2 p u))
  rw [hemb]
  refine (pay2_at (iblk m c 0 t) (iblk m c 1 t) (iblk m c 2 t) (iblk m c 3 t) (iblk m c 4 t) p u).trans ?_
  rw [row_eq m c t p hr, iblk2_at m c t p u hr]
  rfl

/-- Point t flushes block t of the new hidden state. -/
theorem flushed5_eq (c : Dev nD) (t : Fin cfg0.N) :
    (dats m 0 c).flushed 5 t = ((cfg0.win 5).blk t).view.read (Elt Ideal) (hidG (V m c main_arg0) (V m c main_arg1) (V m c main_arg2) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  show (cfg0.win 5).cut (grid0.coords t) ((dats m 0 c).after 5 t) = _
  rw [after0_5]
  unfold out0_5
  rw [View.canon_unit_zero hz2]
  simp only [View.ld_unit_zero (S := S256x1024) hz2, View.ld_unit_zero (S := S2048x4096) hz2, View.ld_unit_zero (S := S4096) hz1]
  funext j
  obtain ⟨p, u, rfl⟩ : ∃ (p : Fin 256) (u : Fin 1024), j = ix2 p u := ⟨j 0, j 1, eq_ix2 j⟩
  have hr : t.val * 256 + p.val < 8192 := by have := t_lt t; have := p.isLt; omega
  obtain ⟨-, -, -, -, -, -, -, -, -, e50, e51, e60, e61⟩ := idx_facts t
  have hemb : ((cfg0.win 5).blk t).view.emb (ix2 p u) = ix2 (⟨t.val * 256 + p.val, hr⟩ : Fin 8192) u := funext fun a => Fin.ext (by
    match a with
    | ⟨0, _⟩ => show win0_5.index t (0 : Fin 2) * 256 + 1 * p.val = t.val * 256 + p.val; rw [e50]; omega
    | ⟨1, _⟩ => show win0_5.index t (1 : Fin 2) * 1024 + 1 * u.val = u.val; rw [e51]; omega)
  show k0_pay3 (F := Ideal) (iblk m c 0 t) (iblk m c 1 t) (iblk m c 2 t) (iblk m c 3 t) (iblk m c 4 t) (ix2 p u)
    = hidG (V m c main_arg0) (V m c main_arg1) (V m c main_arg2) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (((cfg0.win 5).blk t).view.emb (ix2 p u))
  rw [hemb]
  refine (pay3_at (iblk m c 0 t) (iblk m c 1 t) (iblk m c 2 t) (iblk m c 3 t) (iblk m c 4 t) p u).trans ?_
  rw [row_eq m c t p hr, iblk2_at m c t p u hr]
  rfl

/-! ## The blocks cover the results -/

theorem mem_blk5 (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v3_0).slice (win0_5.rect t)).set ↔ _
  rw [View.set_slice_whole, Rect.mem_set_unit]
  exact Iff.rfl

/-- Row r of the result lies in the block of point r / 256. -/
theorem cover5 (i : S8192x1024.Idx) : ∃ t : Fin cfg0.N, (cfg0.win 5).flush t = true ∧ i ∈ ((cfg0.win 5).blk t).view.set := by
  have hi0 : (i 0).val < 8192 := (i 0).isLt
  have hi1 : (i 1).val < 1024 := (i 1).isLt
  refine ⟨⟨(i 0).val / 256, by rw [show cfg0.N = 32 from N_0]; omega⟩, flush0_5 _, ?_⟩
  rw [mem_blk5]
  obtain ⟨-, -, -, -, -, -, -, -, -, e50, e51, e60, e61⟩ := idx_facts ⟨(i 0).val / 256, by rw [show cfg0.N = 32 from N_0]; omega⟩
  intro a
  match a with
  | ⟨0, _⟩ =>
    show win0_5.index _ (0 : Fin 2) * 256 ≤ (i 0).val ∧ (i 0).val < win0_5.index _ (0 : Fin 2) * 256 + 256
    rw [e50]; show (i 0).val / 256 * 256 ≤ (i 0).val ∧ (i 0).val < (i 0).val / 256 * 256 + 256; omega
  | ⟨1, _⟩ =>
    show win0_5.index _ (1 : Fin 2) * 1024 ≤ (i 1).val ∧ (i 1).val < win0_5.index _ (1 : Fin 2) * 1024 + 1024
    rw [e51]; omega

theorem mem_blk6 (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v3_1).slice (win0_6.rect t)).set ↔ _
  rw [View.set_slice_whole, Rect.mem_set_unit]
  exact Iff.rfl

/-- Row r of the result lies in the block of point r / 256. -/
theorem cover6 (i : S8192x1024.Idx) : ∃ t : Fin cfg0.N, (cfg0.win 6).flush t = true ∧ i ∈ ((cfg0.win 6).blk t).view.set := by
  have hi0 : (i 0).val < 8192 := (i 0).isLt
  have hi1 : (i 1).val < 1024 := (i 1).isLt
  refine ⟨⟨(i 0).val / 256, by rw [show cfg0.N = 32 from N_0]; omega⟩, flush0_6 _, ?_⟩
  rw [mem_blk6]
  obtain ⟨-, -, -, -, -, -, -, -, -, e50, e51, e60, e61⟩ := idx_facts ⟨(i 0).val / 256, by rw [show cfg0.N = 32 from N_0]; omega⟩
  intro a
  match a with
  | ⟨0, _⟩ =>
    show win0_6.index _ (0 : Fin 2) * 256 ≤ (i 0).val ∧ (i 0).val < win0_6.index _ (0 : Fin 2) * 256 + 256
    rw [e60]; show (i 0).val / 256 * 256 ≤ (i 0).val ∧ (i 0).val < (i 0).val / 256 * 256 + 256; omega
  | ⟨1, _⟩ =>
    show win0_6.index _ (1 : Fin 2) * 1024 ≤ (i 1).val ∧ (i 1).val < win0_6.index _ (1 : Fin 2) * 1024 + 1024
    rw [e61]; omega

/-! ## The result arrays after the run -/

theorem final5 (c : Dev nD) : (dats m 0 c).arrAt 5 cfg0.N = hidG (V m c main_arg0) (V m c main_arg1) (V m c main_arg2) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 5 (hidG (V m c main_arg0) (V m c main_arg1) (V m c main_arg2) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushed5_eq m c t) cover5

theorem final6 (c : Dev nD) : (dats m 0 c).arrAt 6 cfg0.N = cellG (V m c main_arg0) (V m c main_arg1) (V m c main_arg2) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dats m 0 c).arrAt_eq_of_cover 6 (cellG (V m c main_arg0) (V m c main_arg1) (V m c main_arg2) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (fun t _ => flushed6_eq m c t) cover6

/-- Every execution of the idealized kernel's program ends with the first result at the new hidden state and the second
    at the new cell state of the arguments as launched, and the arguments unchanged. -/
theorem run : θ_run defs (onTc (τ := τ) (main (F := Ideal))) ⟨m, fun _ => 0, ρ⟩ fun r => ∀ c : Dev nD,
      r.2.mem ((c.tc : Thread nD τ).loc main_v3_0) = hidG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v3_1) = cellG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => by
    have hf := h c
    refine ⟨?_, ?_, ((hf).1 0).trans (((dats m 0 c).arrAt_in 0 rfl _).trans ((A_eq m c 0).trans (V_main_arg0 m c))),
      ((hf).1 1).trans (((dats m 0 c).arrAt_in 1 rfl _).trans ((A_eq m c 1).trans (V_main_arg1 m c))),
      ((hf).1 2).trans (((dats m 0 c).arrAt_in 2 rfl _).trans ((A_eq m c 2).trans (V_main_arg2 m c))),
      ((hf).2 main_arg3 (Pipeline.mem_restRefs_of main_arg3 (by decide) (by decide))).trans (V_main_arg3 m c),
      ((hf).2 main_arg4 (Pipeline.mem_restRefs_of main_arg4 (by decide) (by decide))).trans (V_main_arg4 m c),
      ((hf).2 main_arg5 (Pipeline.mem_restRefs_of main_arg5 (by decide) (by decide))).trans (V_main_arg5 m c),
      ((hf).2 main_arg6 (Pipeline.mem_restRefs_of main_arg6 (by decide) (by decide))).trans (V_main_arg6 m c),
      ((hf).2 main_arg7 (Pipeline.mem_restRefs_of main_arg7 (by decide) (by decide))).trans (V_main_arg7 m c),
      ((hf).2 main_arg8 (Pipeline.mem_restRefs_of main_arg8 (by decide) (by decide))).trans (V_main_arg8 m c),
      ((hf).2 main_arg9 (Pipeline.mem_restRefs_of main_arg9 (by decide) (by decide))).trans (V_main_arg9 m c),
      ((hf).2 main_arg10 (Pipeline.mem_restRefs_of main_arg10 (by decide) (by decide))).trans (V_main_arg10 m c)⟩
    · refine (((hf).1 5).trans (final5 m c)).trans ?_
      rw [V_main_arg0, V_main_arg1, V_main_arg2]
    · refine (((hf).1 6).trans (final6 m c)).trans ?_
      rw [V_main_arg0, V_main_arg1, V_main_arg2])
    (run_main m ρ)

end Cert.KernelIdeal.Val

end
-- ==== Proof.RefSpec.lean ====
/-
  The reference at one element. Its pre-activation array is the matrix product of [x | h] with the four weights laid
  side by side, plus the four biases laid end to end and repeated down the rows; the four gate arrays are column
  ranges of it; the logistic is spelt 1 / (1 + e^(−z)). Read at row r and unit u, the two results are the LSTM cell of
  row r's pre-activations.
-/
import proofs.«112288_j42846593745221_1_alg».proof.Proof.Gen.ReferenceIdeal.Read
import proofs.«112288_j42846593745221_1_alg».proof.Proof.Spec

noncomputable section

open scoped BigOperators

namespace Cert.ReferenceIdeal.RefSpec

open Cert.ReferenceIdeal Cert.ReferenceIdeal.Gen Cert.ReferenceIdeal.Read Idealize.ShloMosaic Idealize.ShloMosaic.ValueIdx Cert.Lstm

variable (x0 x1 x2 : (⟨S8192x1024, .f32⟩ : BufTy).Contents (Elt Ideal)) (x3 x4 x5 x6 : (⟨S2048x1024, .f32⟩ : BufTy).Contents (Elt Ideal))
  (x7 x8 x9 x10 : (⟨S1024, .f32⟩ : BufTy).Contents (Elt Ideal))

/-- The pre-activation array at (r, j): row r of [x | h] against column j of the fused weight, plus the fused bias at j. -/
theorem z_at (i : S8192x4096.Idx) :
    val_main_v6 (F := Ideal) x0 x1 x3 x4 x5 x6 x7 x8 x9 x10 i
      = preact (val_main_v0 (F := Ideal) x0 x1) (val_main_v1 (F := Ideal) x3 x4 x5 x6) (val_main_v2 (F := Ideal) x7 x8 x9 x10) ⟨(i 0).val, (i 0).isLt⟩ ⟨(i 1).val, (i 1).isLt⟩ := by
  rw [val_main_v6_apply, val_main_v3_apply, val_main_v5_apply, val_main_v4_apply]
  unfold preact
  show (∑ k : Fin 2048, _) + _ = _
  congr 1
  · refine Finset.sum_congr rfl fun k _ => ?_
    have el : lidx_main_v3 i k = ix2 (⟨(i 0).val, (i 0).isLt⟩ : Fin 8192) k := funext fun a => by
      match a with
      | ⟨0, _⟩ => rfl
      | ⟨1, _⟩ => rfl
    have er : ridx_main_v3 i k = ix2 k (⟨(i 1).val, (i 1).isLt⟩ : Fin 4096) := funext fun a => by
      match a with
      | ⟨0, _⟩ => rfl
      | ⟨1, _⟩ => rfl
    rw [el, er]
  · exact congrArg _ (funext fun a => by match a with | ⟨0, _⟩ => rfl)

/-- The new cell state at (r, u). -/
theorem cell_at (i : S8192x1024.Idx) :
    val_main_v32 (F := Ideal) x0 x1 x2 x3 x4 x5 x6 x7 x8 x9 x10 i
      = cellAt (preact (val_main_v0 (F := Ideal) x0 x1) (val_main_v1 (F := Ideal) x3 x4 x5 x6) (val_main_v2 (F := Ideal) x7 x8 x9 x10) ⟨(i 0).val, (i 0).isLt⟩) (x2 i) ⟨(i 1).val, (i 1).isLt⟩ := by
  simp only [val_main_v32_apply, val_main_v30_apply, val_main_v31_apply, val_main_v22_apply, val_main_v16_apply, val_main_v23_apply,
    val_main_v21_apply, val_main_v15_apply, val_main_cst_2_apply, val_main_cst_0_apply, val_main_v20_apply, val_main_v14_apply,
    val_main_v19_apply, val_main_v13_apply, val_main_cst_1_apply, val_main_cst_apply, val_main_v18_apply, val_main_v12_apply,
    val_main_v17_apply, val_main_v11_apply, val_main_v8_apply, val_main_v7_apply, val_main_v9_apply, z_at]
  unfold cellAt sigm
  rfl

/-- The new hidden state at (r, u). -/
theorem hid_at (i : S8192x1024.Idx) :
    val_main_v34 (F := Ideal) x0 x1 x2 x3 x4 x5 x6 x7 x8 x9 x10 i
      = hidAt (preact (val_main_v0 (F := Ideal) x0 x1) (val_main_v1 (F := Ideal) x3 x4 x5 x6) (val_main_v2 (F := Ideal) x7 x8 x9 x10) ⟨(i 0).val, (i 0).isLt⟩) (x2 i) ⟨(i 1).val, (i 1).isLt⟩ := by
  simp only [val_main_v34_apply, val_main_v33_apply, val_main_v29_apply, val_main_v28_apply, val_main_cst_4_apply, val_main_v27_apply,
    val_main_v26_apply, val_main_cst_3_apply, val_main_v25_apply, val_main_v24_apply, val_main_v10_apply, z_at, cell_at]
  unfold hidAt sigm
  rfl

/-- The reference's second result is the new cell state of the arguments. -/
theorem cell_eq : val_main_v32 (F := Ideal) x0 x1 x2 x3 x4 x5 x6 x7 x8 x9 x10 = cellG x0 x1 x2 x3 x4 x5 x6 x7 x8 x9 x10 :=
  funext fun i => (cell_at x0 x1 x2 x3 x4 x5 x6 x7 x8 x9 x10 i).trans rfl

/-- The reference's first result is the new hidden state of the arguments. -/
theorem hid_eq : val_main_v34 (F := Ideal) x0 x1 x2 x3 x4 x5 x6 x7 x8 x9 x10 = hidG x0 x1 x2 x3 x4 x5 x6 x7 x8 x9 x10 :=
  funext fun i => (hid_at x0 x1 x2 x3 x4 x5 x6 x7 x8 x9 x10 i).trans rfl

end Cert.ReferenceIdeal.RefSpec

end
-- ==== Proof.lean ====
/-
  The kernel against its reference: an LSTM cell over 8192 rows.

  Both programs compute, for each row r, the pre-activations  z(r, ·) = [x | h](r, ·) · [W_i | W_f | W_g | W_o] + [b_i b_f b_g b_o]
  and from them  c' = σ(z_f) · c + σ(z_i) · tanh(z_g)  and  h' = σ(z_o) · tanh(c'). The kernel does so 256 rows at a time,
  with the operands of the product rounded to bf16 (the identity on extended reals) and σ as one operation; the
  reference does so for all rows at once, with σ(z) spelt 1 / (1 + e^(−z)). Over the extended reals the two agree
  element by element, with no appeal to the finiteness of the inputs: the only laws used are the definitions of the
  operations and the re-indexing of a sum.

  The frames: each program ends on every weakly fair execution, faults nowhere and leaves its arguments as launched.
  The kernel writes none of them (three are staged read-only, the others reach it only through the fused copies the
  host operations make); the reference is host operations alone.
-/
import proofs.«112288_j42846593745221_1_alg».proof.Defs
import proofs.«112288_j42846593745221_1_alg».proof.Proof.Gen.Kernel
import proofs.«112288_j42846593745221_1_alg».proof.Proof.Gen.KernelIdeal
import proofs.«112288_j42846593745221_1_alg».proof.Proof.Gen.ReferenceIdeal
import proofs.«112288_j42846593745221_1_alg».proof.Proof.Gen.Pre_finite_inputs
import proofs.«112288_j42846593745221_1_alg».proof.Proof.Gen.ReferenceIdeal.Run
import proofs.«112288_j42846593745221_1_alg».proof.Proof.Gen.ReferenceIdeal.Read
import proofs.«112288_j42846593745221_1_alg».proof.Proof.FrameKernel
import proofs.«112288_j42846593745221_1_alg».proof.Proof.KernelValue
import proofs.«112288_j42846593745221_1_alg».proof.Proof.RefSpec
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- Both programs end with the first result at the new hidden state and the second at the new cell state of their
    arguments, and the arguments agree. -/
theorem algebraic : Cert.algebraic_KernelIdeal_ReferenceIdeal := by
  intro m ρ m' ρ' _ hagree
  refine ⟨_, _, Cert.KernelIdeal.Val.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10⟩ := hagree c
  refine ⟨?_, ?_, (h c).2.2⟩
  · rw [(h c).1, Cert.ReferenceIdeal.Read.val_main_v34_eq, Cert.ReferenceIdeal.RefSpec.hid_eq, a0, a1, a2, a3, a4, a5, a6, a7, a8, a9, a10]
  · refine ((h c).2.1.trans (Cert.ReferenceIdeal.Read.val_main_v32_eq _ _ _ _ _ _ _ _ _ _ _)).trans ?_
    rw [Cert.ReferenceIdeal.RefSpec.cell_eq, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
